-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S10000x128 .f32 .bf16
  ∧ IdealRules.truncf_extf.Statement Cert.KernelIdeal.S128x128 .f32 .bf16
  ∧ IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | .local _ .vmem, ⟨6, _⟩ => ⟨S10000x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S10000x128_S10000x128_S10000x256_d1 : Shape.Concatenates [S10000x128, S10000x128] S10000x256 1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  slices_S400x256_o0_0_S400x128 : S400x256.Slices ![0, 0] S400x128
  slices_S400x256_o0_128_S400x128 : S400x256.Slices ![0, 128] S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.CaseValues.lean ====
/-
  What each control case of the fused kernel leaves behind, as values (any float instance).

  The kernel has two cases: at the grid's first point it stores the whole scratch (the split hidden layer) and then the
  output tile; at every later point it stores only the output tile, reading the scratch the first point left. Each
  store covers its buffer with one piece, so what a buffer holds afterwards is that piece's payload.
-/
import proofs.«172041_g22574348108057_cont_8to1_711_8_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Fused

open Cert.KernelIdeal Cert.KernelIdeal.Gen

variable {F : FTy → Type} [FloatOps F]

theorem hz2 : (![0, 0] : Fin 2 → Nat) = fun _ => 0 := funext fun a => by fin_cases a <;> rfl

/-- The first grid point stores the whole scratch: the split hidden layer `k0_pay1` of the node features and the weights,
    its one covering store's payload, whose loads read the whole staging buffers. -/
theorem scratch_first (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x256 .bf16) (h5 : a5.IsWhole)
    (hc : cond0_0 i) (x0 : Vec F S10000x128 .f32) (x1 : Vec F S128x128 .f32) (x2 : Vec F S400x10000 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, View.ld_unit_zero (S := S10000x128) hz2,
    View.ld_unit_zero (S := S128x128) hz2]

/-- The first grid point's output block: the adjacency tile against the scratch it has just stored (the scratch is read
    back after the store, so it is the stored value). -/
theorem block_first (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x256 .bf16) (h5 : a5.IsWhole)
    (hc : cond0_0 i) (x0 : Vec F S10000x128 .f32) (x1 : Vec F S128x128 .f32) (x2 : Vec F S400x10000 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, h3.read_unread, View.ld_unit_zero (S := S10000x128) hz2,
    View.ld_unit_zero (S := S128x128) hz2, View.ld_unit_zero (S := S400x10000) hz2,
    View.readCov_unit_zero (S := S10000x256) _ hz2]

/-- A later grid point's output block: the adjacency tile against the scratch as the point before left it. -/
theorem block_later (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x256 .bf16) (h5 : a5.IsWhole)
    (hc : ¬cond0_0 i) (x0 : Vec F S10000x128 .f32) (x1 : Vec F S128x128 .f32) (x2 : Vec F S400x10000 .f32)
    (xs0 : Vec F S10000x256 .bf16) :
    out0_B_3 c i a1 h1 a2 h2 a3 h3 a4 h4 a5 h5 hc x0 x1 x2 xs0 = k0_pay2 x2 xs0 := by
  unfold out0_B_3
  rw [View.read_writes_eq_canon _ _ _ (cover0_B_3 c i a1 h1 a2 h2 a3 h3 a4 h4 a5 h5 hc x0 x1 x2 xs0)]
  unfold kernelRun0_B
  dsimp only
  rw [View.canon_unit_zero hz2]
  simp only [View.readAt_eq_ld, h3.read_unread, h5.read_unread, View.ld_unit_zero (S := S400x10000) hz2,
    View.ld_unit_zero (S := S10000x256) hz2]

end Cert.KernelIdeal.Fused

end
-- ==== Proof.TileRun.lean ====
/-
  What the fused kernel's run leaves, point by point (any float instance).

  The scratch is stored once, at the grid's first point, from the whole feature and weight arrays (their windows' one
  block is the whole array at every point), and never again: after EVERY point it holds that first value (induction on
  the point; a later point's case keeps what the point before left). So the tile point `t` leaves in the output's
  staging buffer is the tile payload of adjacency block `t` and that one scratch value.
  The blocks, read through their windows: the feature and weight blocks are the arrays themselves; adjacency block `t`
  is rows `400·t … 400·t + 399`, all columns.
-/
import proofs.«172041_g22574348108057_cont_8to1_711_8_alg».proof.Proof.Gen.KernelIdeal.Value
import proofs.«172041_g22574348108057_cont_8to1_711_8_alg».proof.Proof.CaseValues
import Idealize.ShloMosaic.Lib.ValueIdx

noncomputable section

namespace Cert.KernelIdeal.Fused

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The three input blocks at a point, at their literal types. -/
abbrev featBlk (c : Dev nD) (t : Fin cfg0.N) : Vec F S10000x128 .f32 := iblk m c 0 t
abbrev wtBlk (c : Dev nD) (t : Fin cfg0.N) : Vec F S128x128 .f32 := iblk m c 1 t
abbrev adjBlk (c : Dev nD) (t : Fin cfg0.N) : Vec F S400x10000 .f32 := iblk m c 2 t

/-- The three argument arrays as the region finds them, at their literal types. -/
abbrev featArr (c : Dev nD) : Vec F S10000x128 .f32 := V m c main_arg0
abbrev adjArr (c : Dev nD) : Vec F S10000x10000 .f32 := V m c main_arg1
abbrev wtArr (c : Dev nD) : Vec F S128x128 .f32 := V m c main_arg2

theorem grid_pos : 0 < cfg0.N := by rw [show cfg0.N = 25 from N_0]; decide

/-- The grid's first point. -/
abbrev first : Fin cfg0.N := ⟨0, grid_pos⟩

/-- The one value the scratch ever takes: the scratch payload of the first point's feature and weight blocks. -/
abbrev scratchVal (c : Dev nD) : FVec F S10000x256 .bf16 := k0_pay1 (featBlk m c first) (wtBlk m c first)

/-- After every point the carried scratch holds the value the first point stored. -/
theorem scratch_after (c : Dev nD) : ∀ (n : ℕ) (hn : n < cfg0.N), (outsAt0 m c n hn).2 = scratchVal m c
  | 0, hn => by
    rw [outsAt0_A m c ⟨0, hn⟩ rfl]
    dsimp only
    exact scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl)
      (iblk m c 0 ⟨0, hn⟩) (iblk m c 1 ⟨0, hn⟩) (iblk m c 2 ⟨0, hn⟩)
  | n + 1, hn => by
    have hN : cfg0.N = 25 := N_0
    have hB : ¬(⟨n + 1, hn⟩ : Fin cfg0.N).val % 25 = 0 := by dsimp only; omega
    rw [outsAt0_B m c ⟨n + 1, hn⟩ hB]
    dsimp only
    unfold sout0_B_0
    exact scratch_after c n (Nat.lt_of_succ_lt hn)

/-- The tile point `t` leaves in the output's staging buffer: its adjacency block against the scratch value. -/
theorem tile_after (c : Dev nD) (t : Fin cfg0.N) :
    (outsAt0 m c t.val t.isLt).1 = k0_pay2 (adjBlk m c t) (scratchVal m c) := by
  have hN : cfg0.N = 25 := N_0
  by_cases h0 : t.val % 25 = 0
  · obtain rfl : t = first := Fin.ext (by have := t.isLt; show t.val = 0; omega)
    rw [outsAt0_A m c first h0]
    dsimp only
    exact block_first c (grid0.coords first) (ms0_0 first) (hs0_0 first) (ms0_1 first) (hs0_1 first) (ms0_2 first) (hs0_2 first) (ms0_3 first) (hs0_3 first) scM0_0 (Memref.isWhole_whole _) ((hcond0_0 first).mpr h0)
      (iblk m c 0 first) (iblk m c 1 first) (iblk m c 2 first)
  · rw [outsAt0_B m c t h0]
    dsimp only
    refine (block_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t)
      (outsAt0 m c (t.val - 1) (Nat.lt_of_le_of_lt (Nat.sub_le _ _) t.isLt)).2).trans ?_
    exact congrArg (k0_pay2 (adjBlk m c t)) (scratch_after m c _ _)

/-! ## The blocks read through their windows -/

/-- The printed index maps over the grid: the feature and weight windows stay at block `(0, 0)`; the adjacency and
    output windows are at block `(t, 0)`. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at any point is the feature array. -/
theorem featBlk_apply (c : Dev nD) (t : Fin cfg0.N) (y : S10000x128.Idx) : featBlk m c t y = featArr m c y := by
  obtain ⟨e0, e1, -⟩ := index_facts t
  show V m c main_arg0 (((cfg0.win 0).blk t).view.emb y) = V m c main_arg0 y
  refine congrArg (V m c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight block at any point is the weight array. -/
theorem wtBlk_apply (c : Dev nD) (t : Fin cfg0.N) (y : S128x128.Idx) : wtBlk m c t y = wtArr m c y := by
  obtain ⟨-, -, e0, e1, -⟩ := index_facts t
  show V m c main_arg2 (((cfg0.win 1).blk t).view.emb y) = V m c main_arg2 y
  refine congrArg (V m c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Adjacency block `t` at `(p, k)` is the adjacency array at row `400·t + p`, column `k`. -/
theorem adjBlk_apply (c : Dev nD) (t : Fin cfg0.N) (p : Fin 400) (k : Fin 10000) (r : Fin 10000)
    (hr : r.val = 400 * t.val + p.val) : adjBlk m c t (ix2 p k) = adjArr m c (ix2 r k) := by
  obtain ⟨-, -, -, -, e0, e1, -⟩ := index_facts t
  show V m c main_arg1 (((cfg0.win 2).blk t).view.emb (ix2 p k)) = V m c main_arg1 (ix2 r k)
  refine congrArg (V m c main_arg1) (funext fun a => Fin.ext ?_)
  match a with
  | ⟨0, _⟩ => show win0_2.index t (0 : Fin 2) * 400 + 1 * p.val = r.val; omega
  | ⟨1, _⟩ => show win0_2.index t (1 : Fin 2) * 10000 + 1 * k.val = k.val; omega

end Cert.KernelIdeal.Fused

end
-- ==== Proof.PayloadAt.lean ====
/-
  The kernel's two payloads read at an index, on the extended reals.

  * The scratch the first grid point stores is `[h | h - h]` side by side (256 columns), where `h` is the hidden layer
    formed from the high/low split of both operands: `h = x · W + x · (W - W) + (x - x) · W` (a change of float format is
    the identity here, so the "high" part of `v` is `v` and the "low" part is `v - v`).
  * Every grid point's output tile is `max (P[:, :128] + P[:, 128:]) 0` with `P` the product of its adjacency tile
    (400 rows) and the scratch.

  A matrix product into the zero accumulator reads as the plain sum over the contracted coordinate; the two products'
  coordinate lemmas are stated per record at the literal axes and used inside the sum.
-/
import proofs.«172041_g22574348108057_cont_8to1_711_8_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Fused

open Cert.KernelIdeal Cert.KernelIdeal.Gen Idealize.ShloMosaic Idealize.ShloMosaic.ValueIdx

/-! ## The two matrix products at an index -/

theorem xw_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem xw_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem xw_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem xw_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The features-by-weights product at `(a, b)`: the sum over the 128 feature coordinates. -/
theorem xw_apply (l : FVec Ideal S10000x128 .bf16) (r : FVec Ideal S128x128 .bf16) (a : Fin 10000) (b : Fin 128) :
    matmul dot_S10000x128_S128x128_S10000x128_1_0_0_1_n_n none l r (constant (F := Ideal) S10000x128 .f32 0x00000000#32) (ix2 a b)
      = ∑ k : Fin 128, l (ix2 a k) * r (ix2 k b) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 a b) ((contrEquiv1 dot_S10000x128_S128x128_S10000x128_1_0_0_1_n_n 128 rfl rfl).symm k) = ix2 a k := funext fun ax => Fin.ext (by
    match ax with
    | ⟨0, _⟩ => exact xw_lhs_0 _ _
    | ⟨1, _⟩ => exact (xw_lhs_1 _ _).trans hk)
  have er : dot_S10000x128_S128x128_S10000x128_1_0_0_1_n_n.rhsIdx (ix2 a b) ((contrEquiv1 dot_S10000x128_S128x128_S10000x128_1_0_0_1_n_n 128 rfl rfl).symm k) = ix2 k b := funext fun ax => Fin.ext (by
    match ax with
    | ⟨0, _⟩ => exact (xw_rhs_0 _ _).trans hk
    | ⟨1, _⟩ => exact xw_rhs_1 _ _)
  rw [el, er]

theorem ah_lhs_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem ah_lhs_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem ah_rhs_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem ah_rhs_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The adjacency-tile-by-scratch product at `(a, b)`: the sum over the 10000 nodes. -/
theorem ah_apply (l : FVec Ideal S400x10000 .bf16) (r : FVec Ideal S10000x256 .bf16) (a : Fin 400) (b : Fin 256) :
    matmul dot_S400x10000_S10000x256_S400x256_1_0_0_1_n_n none l r (constant (F := Ideal) S400x256 .f32 0x00000000#32) (ix2 a b)
      = ∑ k : Fin 10000, l (ix2 a k) * r (ix2 k b) := by
  simp only [matmul]
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 a b) ((contrEquiv1 dot_S400x10000_S10000x256_S400x256_1_0_0_1_n_n 10000 rfl rfl).symm k) = ix2 a k := funext fun ax => Fin.ext (by
    match ax with
    | ⟨0, _⟩ => exact ah_lhs_0 _ _
    | ⟨1, _⟩ => exact (ah_lhs_1 _ _).trans hk)
  have er : dot_S400x10000_S10000x256_S400x256_1_0_0_1_n_n.rhsIdx (ix2 a b) ((contrEquiv1 dot_S400x10000_S10000x256_S400x256_1_0_0_1_n_n 10000 rfl rfl).symm k) = ix2 k b := funext fun ax => Fin.ext (by
    match ax with
    | ⟨0, _⟩ => exact (ah_rhs_0 _ _).trans hk
    | ⟨1, _⟩ => exact ah_rhs_1 _ _)
  rw [el, er]

/-! ## The scratch: the split hidden layer beside its own remainder -/

/-- The hidden layer as the kernel forms it: three products of the split operands, added left to right. -/
def splitHidden (x : Vec Ideal S10000x128 .f32) (w : Vec Ideal S128x128 .f32) : FVec Ideal S10000x128 .f32 :=
  addf (addf
    (matmul dot_S10000x128_S128x128_S10000x128_1_0_0_1_n_n none (truncf .bf16 x bitsLt_bf16_f32) (truncf .bf16 w bitsLt_bf16_f32) (constant S10000x128 .f32 0x00000000#32))
    (matmul dot_S10000x128_S128x128_S10000x128_1_0_0_1_n_n none (truncf .bf16 x bitsLt_bf16_f32) (truncf .bf16 (subf w w) bitsLt_bf16_f32) (constant S10000x128 .f32 0x00000000#32)))
    (matmul dot_S10000x128_S128x128_S10000x128_1_0_0_1_n_n none (truncf .bf16 (subf x x) bitsLt_bf16_f32) (truncf .bf16 w bitsLt_bf16_f32) (constant S10000x128 .f32 0x00000000#32))

/-- The stored scratch is the hidden layer and its remainder `h - h`, concatenated along the columns. -/
theorem pay1_eq (x : Vec Ideal S10000x128 .f32) (w : Vec Ideal S128x128 .f32) :
    k0_pay1 x w = shapeCast S10000x256 (concatenate S10000x256 1
      [⟨S10000x128, truncf .bf16 (splitHidden x w) bitsLt_bf16_f32⟩,
       ⟨S10000x128, truncf .bf16 (subf (splitHidden x w) (splitHidden x w)) bitsLt_bf16_f32⟩]
      concatenates_S10000x128_S10000x128_S10000x256_d1) shapeCasts_S10000x256_S10000x256 := rfl

/-- Entry `(k, n)` of the hidden layer as formed: the plain dot product, plus the two products that carry a `v - v`. -/
theorem splitHidden_apply (x : Vec Ideal S10000x128 .f32) (w : Vec Ideal S128x128 .f32) (k : Fin 10000) (n : Fin 128) :
    splitHidden x w (ix2 k n)
      = ((∑ j : Fin 128, x (ix2 k j) * w (ix2 j n)) + ∑ j : Fin 128, x (ix2 k j) * (w (ix2 j n) - w (ix2 j n)))
        + ∑ j : Fin 128, (x (ix2 k j) - x (ix2 k j)) * w (ix2 j n) := by
  unfold splitHidden
  simp only [addf_apply, xw_apply]
  rfl

/-- The scratch's left half (columns below 128) is the hidden layer. -/
theorem scratch_left (x : Vec Ideal S10000x128 .f32) (w : Vec Ideal S128x128 .f32) (k : Fin 10000) (n : Fin 128)
    (cl : Fin 256) (hcl : cl.val = n.val) :
    k0_pay1 x w (ix2 k cl) = splitHidden x w (ix2 k n) := by
  rw [pay1_eq, shapeCast_self]
  exact concatenate_pair_apply_left (t := S10000x256) (s₁ := S10000x128) (s₂ := S10000x128) (1 : Fin S10000x256.rank) _ _ _ (ix2 k cl) rfl (ix2 k n) (fun b => by
    match b with
    | ⟨0, _⟩ => rfl
    | ⟨1, _⟩ => exact hcl.symm)

/-- The scratch's right half (columns from 128) is the hidden layer minus itself. -/
theorem scratch_right (x : Vec Ideal S10000x128 .f32) (w : Vec Ideal S128x128 .f32) (k : Fin 10000) (n : Fin 128)
    (cr : Fin 256) (hcr : cr.val = 128 + n.val) :
    k0_pay1 x w (ix2 k cr) = splitHidden x w (ix2 k n) - splitHidden x w (ix2 k n) := by
  rw [pay1_eq, shapeCast_self]
  exact concatenate_pair_apply_right (t := S10000x256) (s₁ := S10000x128) (s₂ := S10000x128) (1 : Fin S10000x256.rank) _ _ _ (ix2 k cr) rfl rfl (ix2 k n) (fun b hb => by
    match b with
    | ⟨0, _⟩ => rfl
    | ⟨1, _⟩ => exact absurd rfl hb) (by show n.val + 128 = cr.val; omega)

/-! ## The output tile -/

/-- Entry `(p, n)` of a grid point's output tile: the adjacency row against the scratch's two halves, the halves added,
    then the maximum with zero. -/
theorem tile_apply (a : Vec Ideal S400x10000 .f32) (s : Vec Ideal S10000x256 .bf16) (p : Fin 400) (n : Fin 128)
    (cl cr : Fin 256) (hcl : cl.val = n.val) (hcr : cr.val = 128 + n.val) :
    k0_pay2 a s (ix2 p n)
      = max ((∑ k : Fin 10000, a (ix2 p k) * s (ix2 k cl)) + ∑ k : Fin 10000, a (ix2 p k) * s (ix2 k cr)) 0 := by
  unfold k0_pay2
  simp only [maximumf_apply, addf_apply, broadcast_apply]
  rw [slice2_axis1_apply 0 _ _ p n cl (by omega), slice2_axis1_apply 128 _ _ p n cr hcr, ah_apply, ah_apply]
  simp only [Scalar.ofBits, Ideal.ofBits_def, Ideal.ofBits_zero_f32]
  rfl

end Cert.KernelIdeal.Fused

end
-- ==== Proof.SplitAlgebra.lean ====
/-
  The algebra that joins the two sides, on the extended reals, over abstract finite index types.

  The kernel forms its hidden layer `h = x · W` from a high/low split of each operand: with `hi v = v` and
  `lo v = v - hi v` (a change of float format being the identity on the extended reals) it adds the three products
  `x · W + x · (W - W) + (x - x) · W`, stores `h` beside `h - h`, multiplies the adjacency row into both halves and
  adds the halves before the final `max · 0`. For REAL entries of `x` and `W` every difference `v - v` is `0`, a product
  with `0` is `0` (for any extended real), so the three products collapse to the plain one, which is again real, and
  the second half contributes a sum of zeros: the result is `max (∑ₖ A k · ∑ⱼ x k j · W j) 0`, the reference's formula.
  Finiteness of `x` and `W` is what the law needs (`⊤ - ⊤` is not `0`); nothing is asked of the adjacency row.
-/
import Idealize.ShloMosaic.PureOps.Ideal.Laws

noncomputable section

namespace Cert.SplitAlgebra

open Finset

/-- The coercion of a finite sum of reals is the sum of the coercions. -/
theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A real extended real minus itself is zero. -/
theorem sub_self_coe (r : ℝ) : (r : EReal) - (r : EReal) = 0 := by
  rw [← EReal.coe_sub, sub_self, EReal.coe_zero]

/-- One entry of the hidden layer: for real rows the three split products are the plain dot product, a real number. -/
theorem split_dot {ι : Type*} [Fintype ι] (x w : ι → EReal)
    (hx : ∀ j, ∃ a : ℝ, x j = (a : EReal)) (hw : ∀ j, ∃ b : ℝ, w j = (b : EReal)) :
    ∃ r : ℝ, (∑ j, x j * w j + ∑ j, x j * (w j - w j)) + ∑ j, (x j - x j) * w j = (r : EReal)
      ∧ ∑ j, x j * w j = (r : EReal) := by
  choose a ha using hx
  choose b hb using hw
  have hdot : ∑ j, x j * w j = ((∑ j, a j * b j : ℝ) : EReal) := by
    rw [coe_sum]
    exact Finset.sum_congr rfl fun j _ => by rw [ha j, hb j, EReal.coe_mul]
  refine ⟨∑ j, a j * b j, ?_, hdot⟩
  have h2 : ∑ j, x j * (w j - w j) = 0 :=
    Finset.sum_eq_zero fun j _ => by rw [hb j, sub_self_coe, mul_zero]
  have h3 : ∑ j, (x j - x j) * w j = 0 :=
    Finset.sum_eq_zero fun j _ => by rw [ha j, sub_self_coe, zero_mul]
  rw [h2, h3, add_zero, add_zero, hdot]

/-- One entry of the output: the adjacency row against both stored halves, the halves added, then `max · 0`, is the
    reference's `max (A · (x · W)) 0` when `x` and `W` are real. -/
theorem fused_entry {κ ι : Type*} [Fintype κ] [Fintype ι] (A : κ → EReal) (X : κ → ι → EReal) (Wc : ι → EReal)
    (hX : ∀ k j, ∃ a : ℝ, X k j = (a : EReal)) (hW : ∀ j, ∃ b : ℝ, Wc j = (b : EReal))
    (h : κ → EReal)
    (hh : ∀ k, h k = (∑ j, X k j * Wc j + ∑ j, X k j * (Wc j - Wc j)) + ∑ j, (X k j - X k j) * Wc j) :
    max ((∑ k, A k * h k) + ∑ k, A k * (h k - h k)) 0 = max (∑ k, A k * ∑ j, X k j * Wc j) 0 := by
  have key : ∀ k, h k = ∑ j, X k j * Wc j ∧ h k - h k = 0 := fun k => by
    obtain ⟨r, h1, h2⟩ := split_dot (X k) Wc (hX k) hW
    rw [hh k, h1, h2]
    exact ⟨rfl, sub_self_coe r⟩
  have e1 : ∑ k, A k * h k = ∑ k, A k * ∑ j, X k j * Wc j :=
    Finset.sum_congr rfl fun k _ => by rw [(key k).1]
  have e2 : ∑ k, A k * (h k - h k) = 0 :=
    Finset.sum_eq_zero fun k _ => by rw [(key k).2, mul_zero]
  rw [e1, e2, add_zero]

end Cert.SplitAlgebra

end
-- ==== Proof.LayerSpec.lean ====
/-
  The specification both programs meet: one graph-convolution layer, `relu (adj · (x · W))`, as ONE function of the
  three argument arrays, read index by index on the extended reals:

      hidden x W (k, n)   = ∑ⱼ x (k, j) · W (j, n)                         (128 terms)
      layer x adj W (r, n) = max (∑ₖ adj (r, k) · hidden x W (k, n)) 0      (10000 terms)

  Indices are built from coordinates by `ix2`; the sums run over `Fin 128` and `Fin 10000`.
-/
import Idealize.ShloMosaic.Lib.ValueIdx
import Idealize.ShloMosaic.PureOps.Ideal.Laws

noncomputable section

namespace Cert.LayerSpec

open Idealize.ShloMosaic Idealize.ShloMosaic.ValueIdx

/-- The node-feature shape (and the result's), the adjacency's, the weight's. -/
abbrev SX : Shape := ⟨2, ![10000, 128]⟩
abbrev SA : Shape := ⟨2, ![10000, 10000]⟩
abbrev SW : Shape := ⟨2, ![128, 128]⟩

/-- Entry `(k, n)` of the hidden layer `x · W`. -/
def hidden (x : SX.Idx → EReal) (w : SW.Idx → EReal) (k : Fin 10000) (n : Fin 128) : EReal :=
  ∑ j : Fin 128, x (ix2 k j) * w (ix2 j n)

/-- The layer's result: row `r` of the adjacency against column `n` of the hidden layer, clamped below at zero. -/
def layer (x : SX.Idx → EReal) (adj : SA.Idx → EReal) (w : SW.Idx → EReal) : SX.Idx → EReal :=
  fun i => max (∑ k : Fin 10000, adj (ix2 (i 0) k) * hidden x w k (i 1)) 0

theorem layer_apply (x : SX.Idx → EReal) (adj : SA.Idx → EReal) (w : SW.Idx → EReal) (r : Fin 10000) (n : Fin 128) :
    layer x adj w (ix2 r n) = max (∑ k : Fin 10000, adj (ix2 r k) * hidden x w k n) 0 := rfl

end Cert.LayerSpec

end
-- ==== Proof.KernelLayer.lean ====
/-
  The idealized kernel's result array is the layer.

  Point `t` writes back a 400-row tile whose entry `(p, n)` is
  `max (∑ₖ adj (400t + p, k) · h (k, n) + ∑ₖ adj (400t + p, k) · (h (k, n) - h (k, n))) 0`, with `h` the hidden layer formed from
  the split operands; when the features and the weights are real this is the layer's entry `(400t + p, n)` (the algebra of
  the split). So every write-back is the layer read through the output window's block; the 25 blocks tile the 10000
  rows (row `r` lies in block `r / 400`), and the result array ends holding the layer.
-/
import proofs.«172041_g22574348108057_cont_8to1_711_8_alg».proof.Proof.TileRun
import proofs.«172041_g22574348108057_cont_8to1_711_8_alg».proof.Proof.PayloadAt
import proofs.«172041_g22574348108057_cont_8to1_711_8_alg».proof.Proof.SplitAlgebra
import proofs.«172041_g22574348108057_cont_8to1_711_8_alg».proof.Proof.LayerSpec

noncomputable section

namespace Cert.KernelIdeal.Fused

open Cert.KernelIdeal Cert.KernelIdeal.Gen Idealize.ShloMosaic Idealize.ShloMosaic.TcCoe Idealize.SL.Sem
open Idealize.ShloMosaic.ValueIdx Cert.LayerSpec
open Idealize.ShloMosaic.Pipeline (Dat)

variable (m : (ℓ : Loc nD τ sig) → Buf (Elt Ideal) ℓ) (ρ : Dev nD → PrngReg)

/-- The layer of the three argument arrays as the region finds them. -/
abbrev layerOf (c : Dev nD) : S10000x128.Idx → EReal := layer (featArr m c) (adjArr m c) (wtArr m c)

/-- Entry `(p, n)` of point `t`'s tile is the layer's entry at row `400·t + p`, when features and weights are real. -/
theorem tile_is_layer (c : Dev nD) (hx : ∀ i, ∃ a : ℝ, featArr m c i = (a : EReal)) (hw : ∀ i, ∃ b : ℝ, wtArr m c i = (b : EReal))
    (t : Fin cfg0.N) (p : Fin 400) (n : Fin 128) (r : Fin 10000) (hr : r.val = 400 * t.val + p.val) :
    k0_pay2 (adjBlk m c t) (scratchVal m c) (ix2 p n) = layerOf m c (ix2 r n) := by
  have hcl : n.val < 256 := by have := n.isLt; omega
  have hcr : 128 + n.val < 256 := by have := n.isLt; omega
  rw [tile_apply (adjBlk m c t) (scratchVal m c) p n ⟨n.val, hcl⟩ ⟨128 + n.val, hcr⟩ rfl rfl]
  have e1 : ∀ k : Fin 10000, adjBlk m c t (ix2 p k) = adjArr m c (ix2 r k) := fun k => adjBlk_apply m c t p k r hr
  have e2 : ∀ k : Fin 10000, scratchVal m c (ix2 k (⟨n.val, hcl⟩ : Fin 256))
      = splitHidden (featBlk m c first) (wtBlk m c first) (ix2 k n) :=
    fun k => scratch_left (featBlk m c first) (wtBlk m c first) k n ⟨n.val, hcl⟩ rfl
  have e3 : ∀ k : Fin 10000, scratchVal m c (ix2 k (⟨128 + n.val, hcr⟩ : Fin 256))
      = splitHidden (featBlk m c first) (wtBlk m c first) (ix2 k n) - splitHidden (featBlk m c first) (wtBlk m c first) (ix2 k n) :=
    fun k => scratch_right (featBlk m c first) (wtBlk m c first) k n ⟨128 + n.val, hcr⟩ rfl
  simp only [e1, e2, e3]
  exact Cert.SplitAlgebra.fused_entry (fun k : Fin 10000 => adjArr m c (ix2 r k))
    (fun (k : Fin 10000) (j : Fin 128) => featArr m c (ix2 k j)) (fun j : Fin 128 => wtArr m c (ix2 j n))
    (fun k j => hx _) (fun j => hw _)
    (fun k : Fin 10000 => splitHidden (featBlk m c first) (wtBlk m c first) (ix2 k n))
    (fun k => by rw [splitHidden_apply]; simp only [featBlk_apply, wtBlk_apply])

/-- WHAT POINT `t` WRITES BACK is the layer read through the output window's block at `t`. -/
theorem flushed_eq (c : Dev nD) (hx : ∀ i, ∃ a : ℝ, featArr m c i = (a : EReal)) (hw : ∀ i, ∃ b : ℝ, wtArr m c i = (b : EReal))
    (t : Fin cfg0.N) :
    (dats m 0 c).flushed 3 t = ((cfg0.win 3).blk t).view.read (Elt Ideal) (layerOf m c) := by
  rw [Cert.KernelIdeal.Value.flushed3, tile_after]
  have key : ∀ y : S400x128.Idx,
      k0_pay2 (adjBlk m c t) (scratchVal m c) y = layerOf m c (((cfg0.win 3).blk t).view.emb y) := by
    intro y
    obtain ⟨p, n, rfl⟩ : ∃ (p : Fin 400) (n : Fin 128), y = ix2 p n := ⟨y 0, y 1, eq_ix2 y⟩
    have hN : cfg0.N = 25 := N_0
    have hr : 400 * t.val + p.val < 10000 := by have := t.isLt; have := p.isLt; omega
    rw [tile_is_layer m c hx hw t p n ⟨400 * t.val + p.val, hr⟩ rfl]
    obtain ⟨-, -, -, -, -, -, e0, e1⟩ := index_facts t
    refine congrArg (layerOf m c) (funext fun a => Fin.ext ?_)
    match a with
    | ⟨0, _⟩ => show 400 * t.val + p.val = win0_3.index t (0 : Fin 2) * 400 + 1 * p.val; omega
    | ⟨1, _⟩ => show n.val = win0_3.index t (1 : Fin 2) * 128 + 1 * n.val; omega
  funext y
  exact key y

/-- An index of the result array is in point `t`'s block iff each coordinate is in the block's range on its axis. -/
theorem mem_tile (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Every index of the result array lies in the block of the point its row selects. -/
theorem tiles_cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  have hq : (i 0).val / 400 < cfg0.N := by omega
  obtain ⟨-, -, -, -, -, -, e0, e1⟩ := index_facts ⟨(i 0).val / 400, hq⟩
  refine ⟨⟨(i 0).val / 400, hq⟩, flush0_3 _, ?_⟩
  rw [mem_tile]
  intro a
  match a with
  | ⟨0, _⟩ =>
    show win0_3.index ⟨(i 0).val / 400, hq⟩ (0 : Fin 2) * 400 ≤ (i 0).val
      ∧ (i 0).val < win0_3.index ⟨(i 0).val / 400, hq⟩ (0 : Fin 2) * 400 + 400
    rw [e0]; dsimp only; omega
  | ⟨1, _⟩ =>
    show win0_3.index ⟨(i 0).val / 400, hq⟩ (1 : Fin 2) * 128 ≤ (i 1).val
      ∧ (i 1).val < win0_3.index ⟨(i 0).val / 400, hq⟩ (1 : Fin 2) * 128 + 128
    rw [e1]; omega

/-- THE RESULT ARRAY after the run is the layer of the argument arrays. -/
theorem final_layer (c : Dev nD) (hx : ∀ i, ∃ a : ℝ, featArr m c i = (a : EReal)) (hw : ∀ i, ∃ b : ℝ, wtArr m c i = (b : EReal)) :
    (dats m 0 c).arrAt 3 cfg0.N = layerOf m c :=
  (dats m 0 c).arrAt_eq_of_cover 3 (layerOf m c) (fun t _ => flushed_eq m c hx hw t) tiles_cover

/-- The run, read: the result array at the layer, the three arguments unchanged. -/
theorem run_layer (hx : ∀ c i, ∃ a : ℝ, featArr m c i = (a : EReal)) (hw : ∀ c i, ∃ b : ℝ, wtArr m c i = (b : EReal)) :
    θ_run defs (onTc (τ := τ) (main (F := Ideal))) ⟨m, fun _ => 0, ρ⟩ fun r => ∀ c : Dev nD,
      r.2.mem ((c : Thread nD τ).loc main_v0) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_layer m c (hx c) (hw c)), (h c).2⟩)
    (Cert.KernelIdeal.Value.run_blocks m ρ)

end Cert.KernelIdeal.Fused

end
-- ==== Proof.RefLayer.lean ====
/-
  The reference computes the specification.

  Its five host operations are two `dot_general`s, a zero constant, its broadcast, and a `maximum`; read at an index
  `i = (r, n)` on the extended reals they give `max (∑ₖ adj (r, k) · ∑ⱼ x (k, j) · W (j, n)) 0`: the two products' operand
  indices are `(r, k)`, `(k, n)` and `(k, j)`, `(j, n)`, and the broadcast zero word is the extended real `0`.
-/
import proofs.«172041_g22574348108057_cont_8to1_711_8_alg».proof.Proof.Gen.ReferenceIdeal.Read
import proofs.«172041_g22574348108057_cont_8to1_711_8_alg».proof.Proof.LayerSpec

noncomputable section

namespace Cert.ReferenceIdeal.RefLayer

open Cert.ReferenceIdeal Cert.ReferenceIdeal.Gen Cert.ReferenceIdeal.Read Idealize.ShloMosaic Idealize.ShloMosaic.ValueIdx
open Cert.LayerSpec

/-- The outer product reads the adjacency at `(r, k)` -/
theorem adj_index (i : S10000x128.Idx) (k : Fin 10000) : lidx_main_v1 i k = ix2 (i 0) k :=
  funext fun a => Fin.ext (by match a with | ⟨0, _⟩ => rfl | ⟨1, _⟩ => rfl)

/-- and the hidden layer at `(k, n)`; -/
theorem hidden_index (i : S10000x128.Idx) (k : Fin 10000) : ridx_main_v1 i k = ix2 k (i 1) :=
  funext fun a => Fin.ext (by match a with | ⟨0, _⟩ => rfl | ⟨1, _⟩ => rfl)

/-- the inner product reads the features at `(k, j)` -/
theorem feature_index (k : Fin 10000) (n j : Fin 128) : lidx_main_v0 (ix2 k n) j = ix2 k j :=
  funext fun a => Fin.ext (by match a with | ⟨0, _⟩ => rfl | ⟨1, _⟩ => rfl)

/-- and the weights at `(j, n)`. -/
theorem weight_index (k : Fin 10000) (n j : Fin 128) : ridx_main_v0 (ix2 k n) j = ix2 j n :=
  funext fun a => Fin.ext (by match a with | ⟨0, _⟩ => rfl | ⟨1, _⟩ => rfl)

/-- The inner product at `(k, n)` is the specification's hidden-layer entry. -/
theorem hidden_eq (x0 : (⟨S10000x128, .f32⟩ : BufTy).Contents (Elt Ideal)) (x2 : (⟨S128x128, .f32⟩ : BufTy).Contents (Elt Ideal))
    (k : Fin 10000) (n : Fin 128) : val_main_v0 (F := Ideal) x0 x2 (ix2 k n) = hidden x0 x2 k n := by
  rw [val_main_v0_apply]
  simp only [feature_index, weight_index]
  rfl

/-- The reference's result, as a function of its three arguments, is the layer. -/
theorem ref_is_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v2 (F := Ideal) x0 x1 x2 = layer x0 x1 x2 := by
  funext i
  rw [val_main_v2_apply, val_main_v1_apply, val_main_call0_v0_apply, val_main_call0_cst_apply]
  simp only [hidden_index, adj_index, Ideal.maximumf_def, Ideal.ofBits_def, Ideal.ofBits_zero_f32]
  show max _ 0 = max (∑ k : Fin 10000, x1 (ix2 (i 0) k) * hidden x0 x2 k (i 1)) 0
  exact congrArg (fun s => max s (0 : EReal)) (Finset.sum_congr rfl fun k _ =>
    congrArg (fun v => x1 (ix2 (i 0) k) * v) (hidden_eq x0 x2 k (i 1)))

end Cert.ReferenceIdeal.RefLayer

end
-- ==== Proof.FiniteEntries.lean ====
/-
  The precondition, read back: every entry of the features and of the weights is a real number.

  The printed precondition is `all (|x| < +∞) ∧ all (|adj| < +∞) ∧ all (|W| < +∞)`: three reductions by `and` of
  comparison words, joined by `and`, equal to the word 1. A reduction by `and` that is 1 had a 1 at every element; an
  element's word is 1 exactly when `max v (-v) < +∞` (the literal `0x7F800000` is `+∞`), and an extended real whose
  absolute value is below `+∞` is neither infinity: it is the coercion of a real.
-/
import proofs.«172041_g22574348108057_cont_8to1_711_8_alg».proof.Pre_finite_inputs
import proofs.«172041_g22574348108057_cont_8to1_711_8_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The bound the precondition compares against is `+∞`. -/
theorem inf_word : Ideal.ofBits .f32 0x7F800000#32 = (⊤ : EReal) := by simp [Ideal.ofBits, Ideal.ieee]

/-- An extended real whose absolute value compares below `+∞` is a real. -/
theorem real_of_abs_lt (v b : EReal) (hb : b = ⊤) (h : Ideal.cmp .olt (max v (-v)) b = 1#1) :
    ∃ a : ℝ, v = (a : EReal) := by
  subst hb
  have hlt : max v (-v) < ⊤ := by
    by_contra hn
    unfold Ideal.cmp at h
    simp [hn] at h
  induction v using EReal.rec with
  | bot => simp at hlt
  | coe a => exact ⟨a, rfl⟩
  | top => simp at hlt

/-- Under the precondition the feature and the weight arrays hold reals. -/
theorem reals_of_pre (x : FVec Ideal S10000x128 .f32) (a : FVec Ideal S10000x10000 .f32) (w : FVec Ideal S128x128 .f32)
    (h : fn (F := Ideal) x a w = fun _ => 1#1) :
    (∀ i, ∃ r : ℝ, x i = (r : EReal)) ∧ (∀ i, ∃ r : ℝ, w i = (r : EReal)) := by
  have h0 := congrFun h ValueIdx.ix0
  dsimp only [fn] at h0
  obtain ⟨hxa, hw⟩ := IntOp.andi_eq_one.1 h0
  obtain ⟨hx, -⟩ := IntOp.andi_eq_one.1 hxa
  refine ⟨fun i => ?_, fun i => ?_⟩
  · exact real_of_abs_lt (x i) _
      ((broadcastInDim_apply _ Facts.bcast_S_S10000x128 _ i ValueIdx.ix0 (fun d => d.elim0)).trans inf_word)
      (Host.reduce_andi_all _ _ _ _ _ hx i)
  · exact real_of_abs_lt (w i) _
      ((broadcastInDim_apply _ Facts.bcast_S_S128x128 _ i ValueIdx.ix0 (fun d => d.elim0)).trans inf_word)
      (Host.reduce_andi_all _ _ _ _ _ hw i)

end Cert.Pre_finite_inputs.Finite

end
-- ==== Proof.lean ====
/-
  One graph-convolution layer, `relu (adj · (x · W))`, with `x : f32[10000, 128]`, `adj : f32[10000, 10000]`,
  `W : f32[128, 128]`: a fused kernel over 25 row tiles of the adjacency against jnp's two matrix products and a
  maximum with zero.

  The kernel forms the hidden layer `h = x · W` once, at the first grid point, from a high/low split of each operand
  (`hi v` the value narrowed to bf16, `lo v = v - hi v`), as `hi x · hi W + hi x · lo W + lo x · hi W`, splits `h` the same
  way and keeps `[hi h | lo h]` (256 columns) in a scratch buffer that every later point reads. Each point multiplies its
  400-row adjacency tile into both halves, adds the halves and takes the maximum with zero.

  On the extended reals a change of float format is the identity, so `hi v = v` and `lo v = v - v`. For REAL `x` and `W`
  (the precondition: every input entry finite) each `v - v` is `0`, each product with `0` is `0`, so `h` is the plain
  product `x · W`, itself real, `lo h = 0`, the second half of every tile product is a sum of zeros, and a tile's entry is
  `max (∑ₖ adj (r, k) · ∑ⱼ x (k, j) · W (j, n)) 0`: the reference's value, whose two `dot_general`s read as the same sums and
  whose zero is the same word. Nothing is asked of `adj` beyond what the precondition states.

  * the three frames: the two kernels' generated frame runs; the reference's generated run with the result dropped;
  * preserves: the three `extf (truncf v)` windows the idealization replaced by `v`, each the rule's own statement;
  * algebraic: the kernel's result array is the layer (the scratch invariant, the tiles, their cover: KernelLayer),
    the reference's result is the layer (RefLayer), of arguments that agree.
-/
import proofs.«172041_g22574348108057_cont_8to1_711_8_alg».proof.Defs
import proofs.«172041_g22574348108057_cont_8to1_711_8_alg».proof.Proof.Gen.Kernel
import proofs.«172041_g22574348108057_cont_8to1_711_8_alg».proof.Proof.Gen.Kernel.Skeleton
import proofs.«172041_g22574348108057_cont_8to1_711_8_alg».proof.Proof.Gen.Kernel.Launch
import proofs.«172041_g22574348108057_cont_8to1_711_8_alg».proof.Proof.Gen.Kernel.Points
import proofs.«172041_g22574348108057_cont_8to1_711_8_alg».proof.Proof.Gen.Kernel.Frame
import proofs.«172041_g22574348108057_cont_8to1_711_8_alg».proof.Proof.Gen.KernelIdeal
import proofs.«172041_g22574348108057_cont_8to1_711_8_alg».proof.Proof.Gen.KernelIdeal.Skeleton
import proofs.«172041_g22574348108057_cont_8to1_711_8_alg».proof.Proof.Gen.KernelIdeal.Launch
import proofs.«172041_g22574348108057_cont_8to1_711_8_alg».proof.Proof.Gen.KernelIdeal.Points
import proofs.«172041_g22574348108057_cont_8to1_711_8_alg».proof.Proof.Gen.KernelIdeal.Frame
import proofs.«172041_g22574348108057_cont_8to1_711_8_alg».proof.Proof.Gen.ReferenceIdeal
import proofs.«172041_g22574348108057_cont_8to1_711_8_alg».proof.Proof.Gen.KernelIdeal.Value
import proofs.«172041_g22574348108057_cont_8to1_711_8_alg».proof.Proof.Gen.ReferenceIdeal.Run
import proofs.«172041_g22574348108057_cont_8to1_711_8_alg».proof.Proof.Gen.ReferenceIdeal.Read
import proofs.«172041_g22574348108057_cont_8to1_711_8_alg».proof.Proof.Gen.Pre_finite_inputs
import proofs.«172041_g22574348108057_cont_8to1_711_8_alg».proof.Proof.KernelLayer
import proofs.«172041_g22574348108057_cont_8to1_711_8_alg».proof.Proof.RefLayer
import proofs.«172041_g22574348108057_cont_8to1_711_8_alg».proof.Proof.FiniteEntries
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's three rewrites, each a widening of a narrowing replaced by the value itself: the identity on the
    extended reals, the rounding through bf16 on words. -/
theorem preserves : Cert.preserves_Kernel_KernelIdeal :=
  ⟨IdealRules.truncf_extf.statement Cert.KernelIdeal.S10000x128 .f32 .bf16,
   IdealRules.truncf_extf.statement Cert.KernelIdeal.S128x128 .f32 .bf16,
   IdealRules.truncf_extf.statement Cert.KernelIdeal.S10000x128 .f32 .bf16⟩

/-- Both idealized programs end with the layer of their (agreeing, finite) arguments in the result array. -/
theorem algebraic : Cert.algebraic_KernelIdeal_ReferenceIdeal := by
  intro m ρ m' ρ' hpre hagree
  have hreal := fun c => Cert.Pre_finite_inputs.Finite.reals_of_pre _ _ _ (hpre c)
  refine ⟨fun c => Cert.KernelIdeal.Fused.layerOf m c,
    Cert.KernelIdeal.Fused.run_layer m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefLayer.ref_is_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
